-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S64x1024 : Shape := ⟨2, ![64, 1024]⟩
abbrev S8x2048 : Shape := ⟨2, ![8, 2048]⟩
abbrev S_ : Shape := ⟨0, ![]⟩
abbrev S8 : Shape := ⟨1, ![8]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  reducesTo_S8x2048_S8_d1 : S8x2048.ReducesTo [1] S8
  reducesTo_S8_S_d0 : S8.ReducesTo [0] S_

variable [Facts]

def fn_part1 {F : FTy → Type} [FloatOps F] (main_arg4 : IVec S8x2048 1) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_c_6 : IVec S_ 1 := constantI S_ 1 1#1
  let main_v19 : IVec S8 1 := (fun x v => Host.reduce IntOp.andi x v reducesTo_S8x2048_S8_d1 h_S_) main_arg4 main_c_6
  let main_v20 : IVec S8 1 := noti main_v19
  let main_c_7 : IVec S_ 1 := constantI S_ 1 1#1
  let main_v21 : IVec S_ 1 := (fun x v => Host.reduce IntOp.andi x v reducesTo_S8_S_d0 h_S_) main_v20 main_c_7
  let main_v22 : IVec S_ 1 := andi main_v18 main_v21
  main_v22

def fn {F : FTy → Type} [FloatOps F] (main_arg0 : FVec F S8x2048x1024 .f32) (main_arg1 : FVec F S64x1024 .f32) (main_arg2 : FVec F S64x1024 .f32) (main_arg3 : FVec F S64x1024 .f32) (main_arg4 : IVec S8x2048 1) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_v13 main_v16
-- ==== Kernel.lean ====
abbrev S8x2048x1024 : Shape := ⟨3, ![8, 2048, 1024]⟩
abbrev S64x1024 : Shape := ⟨2, ![64, 1024]⟩
abbrev S8x2048 : Shape := ⟨2, ![8, 2048]⟩
abbrev S1024x64 : Shape := ⟨2, ![1024, 64]⟩
abbrev S_ : Shape := ⟨0, ![]⟩
abbrev S8x1x2048 : Shape := ⟨3, ![8, 1, 2048]⟩
abbrev S8x2048x64 : Shape := ⟨3, ![8, 2048, 64]⟩
abbrev S1x2048x1024 : Shape := ⟨3, ![1, 2048, 1024]⟩
abbrev S1x1x2048 : Shape := ⟨3, ![1, 1, 2048]⟩
abbrev S1x2048x64 : Shape := ⟨3, ![1, 2048, 64]⟩
abbrev S2048x64 : Shape := ⟨2, ![2048, 64]⟩
abbrev S2048x1024 : Shape := ⟨2, ![2048, 1024]⟩
abbrev S1x2048 : Shape := ⟨2, ![1, 2048]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩
abbrev S1x256x64 : Shape := ⟨3, ![1, 256, 64]⟩

abbrev nBuf : Space → Nat
  | .hbm => 16
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S8x2048, .i1⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S_, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S8x1x2048, .f32⟩
  | .hbm, ⟨15, _⟩ => ⟨S8x2048x64, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x64, .f32⟩
  | .local _ .vmem, ⟨8, _⟩ => ⟨S1x2048x64, .f32⟩
  | .local _ .vmem, ⟨9, _⟩ => ⟨S2048x64, .bf16⟩
  | .local _ .vmem, ⟨10, _⟩ => ⟨S2048x64, .bf16⟩
  | .local _ .vmem, ⟨11, _⟩ => ⟨S2048x64, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c256_i32 : BitVec 32 := 256#32
  let v31 : BitVec 32 := Scalar.muli c0_i32 c256_i32
  v31
def k0_off1 (c0_i32 : BitVec 32) : Fin 2 → Nat :=
  let c256_i32 : BitVec 32 := 256#32
  let v31 : BitVec 32 := Scalar.muli c0_i32 c256_i32
  let v32 : BitVec 32 := v31
  let v33 : Index := Scalar.indexCast v32
  let c0_20 : Index := 0#32
  ![v33.toNat, 0]
def k0_off2 (c0_i32 : BitVec 32) : Fin 3 → Nat :=
  let c0_29 : Index := 0#32
  let c256_i32 : BitVec 32 := 256#32
  let v31 : BitVec 32 := Scalar.muli c0_i32 c256_i32
  let v32 : BitVec 32 := v31
  let v51 : Index := Scalar.indexCast v32
  let c0_30 : Index := 0#32
  ![0, v51.toNat, 0]
def k0_mult2 : BitVec 32 :=
  let c1_i32 : BitVec 32 := 1#32
  let c256_i32_31 : BitVec 32 := 256#32
  let v55 : BitVec 32 := Scalar.muli c1_i32 c256_i32_31
  v55
def k0_mult3 : BitVec 32 :=
  let c2_i32 : BitVec 32 := 2#32
  let c256_i32_43 : BitVec 32 := 256#32
  let v79 : BitVec 32 := Scalar.muli c2_i32 c256_i32_43
  v79
def k0_mult4 : BitVec 32 :=
  let c3_i32 : BitVec 32 := 3#32
  let c256_i32_55 : BitVec 32 := 256#32
  let v103 : BitVec 32 := Scalar.muli c3_i32 c256_i32_55
  v103
def k0_mult5 : BitVec 32 :=
  let c4_i32 : BitVec 32 := 4#32
  let c256_i32_67 : BitVec 32 := 256#32
  let v127 : BitVec 32 := Scalar.muli c4_i32 c256_i32_67
  v127
def k0_mult6 : BitVec 32 :=
  let c5_i32 : BitVec 32 := 5#32
  let c256_i32_79 : BitVec 32 := 256#32
  let v151 : BitVec 32 := Scalar.muli c5_i32 c256_i32_79
  v151
def k0_mult7 : BitVec 32 :=
  let c6_i32 : BitVec 32 := 6#32
  let c256_i32_91 : BitVec 32 := 256#32
  let v175 : BitVec 32 := Scalar.muli c6_i32 c256_i32_91
  v175
def k0_mult8 : BitVec 32 :=
  let c7_i32 : BitVec 32 := 7#32
  let c256_i32_103 : BitVec 32 := 256#32
  let v199 : BitVec 32 := Scalar.muli c7_i32 c256_i32_103
  v199
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x1024_S1024x64_1_0 : S64x1024.Transposes [1, 0] S1024x64
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  h_S256x64 : 0 < S256x64.numel
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  h_S1x256x64 : 0 < S1x256x64.numel
  shapeCasts_S1x256x64_S256x64 : S1x256x64.ShapeCasts S256x64
  shapeCasts_S256x64_S1x256x64 : S256x64.ShapeCasts S1x256x64
  dot_S2048x1024_S1024x64_S2048x64_1_0_0_1_n_n_wf : DotDims.WF S2048x1024 S1024x64 S2048x64 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  k0_mult1_dvd : 256 ∣ k0_mult1.toNat
  k0_off1_inb : ∀ (r : Fin 8), ∀ a, (k0_off1 (BitVec.ofNat 32 r.val)) a + S256x64.size a ≤ S2048x64.size a
  k0_off2_inb : ∀ (r : Fin 8), ∀ a, (k0_off2 (BitVec.ofNat 32 r.val)) a + S1x256x64.size a ≤ S1x2048x64.size a
  k0_mult2_dvd : 256 ∣ k0_mult2.toNat
  k0_mult3_dvd : 256 ∣ k0_mult3.toNat
  k0_mult4_dvd : 256 ∣ k0_mult4.toNat
  k0_mult5_dvd : 256 ∣ k0_mult5.toNat
  k0_mult6_dvd : 256 ∣ k0_mult6.toNat
  k0_mult7_dvd : 256 ∣ k0_mult7.toNat
  k0_mult8_dvd : 256 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S8x1x2048.size a
  hwx0_4 : ∀ i : grid0.Coords, EltTy.bits .f32 = 32 ∨ (Rect.block (s := S8x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x64.size a ≤ S8x2048x64.size a
  hwx0_5 : ∀ i : grid0.Coords, EltTy.bits .f32 = 32 ∨ (Rect.block (s := S8x2048x64) S1x2048x64.size (cc0_transform_5 i) (hinb0_5 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S64x1024 : Shape := ⟨2, ![64, 1024]⟩
abbrev S8x2048 : Shape := ⟨2, ![8, 2048]⟩
abbrev S8x2048x64 : Shape := ⟨3, ![8, 2048, 64]⟩
abbrev S8x2048x2048 : Shape := ⟨3, ![8, 2048, 2048]⟩
abbrev S_ : Shape := ⟨0, ![]⟩
abbrev S8x1x2048 : Shape := ⟨3, ![8, 1, 2048]⟩
abbrev S8x2048x1 : Shape := ⟨3, ![8, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S8x2048, .i1⟩
  | .hbm, ⟨5, _⟩ => ⟨S8x2048x64, .f32⟩
  | .hbm, ⟨6, _⟩ => ⟨S8x2048x64, .f32⟩
  | .hbm, ⟨7, _⟩ => ⟨S8x2048x64, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S8x1x2048, .i1⟩
  | .hbm, ⟨13, _⟩ => ⟨S_, .f32⟩
  | .hbm, ⟨14, _⟩ => ⟨S_, .f32⟩
  | .hbm, ⟨15, _⟩ => ⟨S8x2048x2048, .i1⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S_, .f32⟩
  | .hbm, ⟨21, _⟩ => ⟨S8x2048, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S64x1024_S8x2048x64_2_1_01_0_n_n_wf : DotDims.WF S8x2048x1024 S64x1024 S8x2048x64 [2] [1] [0, 1] [0] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S64x1024_S8x2048x64_2_1_01_0_n_n : DotDims S8x2048x1024 S64x1024 S8x2048x64 where
  lhsContracting := [2]
  rhsContracting := [1]
  lhsNonContracting := [0, 1]
  rhsNonContracting := [0]
  lhsBatch := []
  rhsBatch := []
  wf := dot_S8x2048x1024_S64x1024_S8x2048x64_2_1_01_0_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.AttnSpec.lean ====
/-
  Single-head masked softmax attention over a batch of 8 sequences of 2048 tokens, embedding width 1024, head width 64,
  written index by index on the extended reals, in the two arrangements the two programs compute.

  With `Q = X·Wqᵀ`, `K = X·Wkᵀ`, `V = X·Wvᵀ` (each entry a sum over the 1024 embedding coordinates), and the scale
  `c0 = 2⁻⁵ = 1024^(-1/2)`:

  * `G`  — the reference's arrangement: the score of query `t` against key `s` is `(∑_d Q[t,d]·K[s,d])·c0`, replaced by `-∞`
    on a masked key; each softmax weight is divided by the row's sum BEFORE it multiplies `V`:
    `∑_s (e_s / ∑ e) · V[s,h]`.
  * `GK` — the kernel's arrangement: the query is scaled first, `(Q[t,d]·c0)·K[s,d]`, the mask is ADDED as `-∞` or `0`,
    and the division by the row's sum comes AFTER the product with `V`: `(∑_s e_s · V[s,h]) / ∑ e`.

  Both take the row maximum as the fold of `max` from `-∞` over the 2048 keys and both subtract it before the exponential.
-/
import Idealize.ShloMosaic.PureOps.Ideal
import Idealize.ShloMosaic.Lib.ValueIdx

noncomputable section

open scoped BigOperators

namespace Cert.Attn

open Idealize.ShloMosaic Idealize.ShloMosaic.ValueIdx

abbrev SX : Shape := ⟨3, ![8, 2048, 1024]⟩
abbrev SW : Shape := ⟨2, ![64, 1024]⟩
abbrev SM : Shape := ⟨2, ![8, 2048]⟩
abbrev SO : Shape := ⟨3, ![8, 2048, 64]⟩

/-- One entry of a projection `X·Wᵀ`: token `t` of sequence `b` against row `h` of the weight. -/
def proj (X : SX.Idx → EReal) (W : SW.Idx → EReal) (b : Fin 8) (t : Fin 2048) (h : Fin 64) : EReal :=
  ∑ c : Fin 1024, X (ix3 b t c) * W (ix2 h c)

/-- The score scale `1024^(-1/2) = 2⁻⁵`, as the f32 word both programs carry. -/
def c0 : EReal := Ideal.ofBits .f32 0x3D000000#32

/-- A row's maximum: the fold of `max` from `-∞` over the 2048 keys. -/
def rowMax (sc : Fin 2048 → EReal) : EReal := (Finset.univ : Finset (Fin 2048)).fold max ⊥ sc

/-- The reference's score of query `t` against key `s`: `-∞` on a masked key. -/
def score (X : SX.Idx → EReal) (Wq Wk : SW.Idx → EReal) (M : SM.Idx → BitVec 1) (b : Fin 8) (t s : Fin 2048) : EReal :=
  if M (ix2 b s) = 1#1 then ⊥ else (∑ d : Fin 64, proj X Wq b t d * proj X Wk b s d) * c0

/-- The reference's result entry: softmax weights normalised first, then averaged against `V`. -/
def Gc (X : SX.Idx → EReal) (Wq Wk Wv : SW.Idx → EReal) (M : SM.Idx → BitVec 1) (b : Fin 8) (t : Fin 2048) (h : Fin 64) : EReal :=
  ∑ s : Fin 2048,
    Ideal.div (Ideal.exp (score X Wq Wk M b t s - rowMax (score X Wq Wk M b t)))
        (∑ s' : Fin 2048, Ideal.exp (score X Wq Wk M b t s' - rowMax (score X Wq Wk M b t)))
      * proj X Wv b s h

/-- The reference's result array. -/
def G (X : SX.Idx → EReal) (Wq Wk Wv : SW.Idx → EReal) (M : SM.Idx → BitVec 1) : SO.Idx → EReal :=
  fun i => Gc X Wq Wk Wv M (i 0) (i 1) (i 2)

/-- The additive mask: `-∞` on a masked key, `0` elsewhere. -/
def maskAdd (M : SM.Idx → BitVec 1) (b : Fin 8) (s : Fin 2048) : EReal := if M (ix2 b s) = 1#1 then ⊥ else 0

/-- The kernel's score: the query scaled before the product, the mask added. -/
def kscore (X : SX.Idx → EReal) (Wq Wk : SW.Idx → EReal) (M : SM.Idx → BitVec 1) (b : Fin 8) (t s : Fin 2048) : EReal :=
  (∑ d : Fin 64, (proj X Wq b t d * c0) * proj X Wk b s d) + maskAdd M b s

/-- The kernel's result entry: the unnormalised weights averaged against `V`, then divided by their sum. -/
def GKc (X : SX.Idx → EReal) (Wq Wk Wv : SW.Idx → EReal) (M : SM.Idx → BitVec 1) (b : Fin 8) (t : Fin 2048) (h : Fin 64) : EReal :=
  Ideal.div (∑ s : Fin 2048, Ideal.exp (kscore X Wq Wk M b t s - rowMax (kscore X Wq Wk M b t)) * proj X Wv b s h)
    (∑ s : Fin 2048, Ideal.exp (kscore X Wq Wk M b t s - rowMax (kscore X Wq Wk M b t)))

/-- The kernel's result array. -/
def GK (X : SX.Idx → EReal) (Wq Wk Wv : SW.Idx → EReal) (M : SM.Idx → BitVec 1) : SO.Idx → EReal :=
  fun i => GKc X Wq Wk Wv M (i 0) (i 1) (i 2)

end Cert.Attn

end
-- ==== Proof.AttnLaw.lean ====
/-
  The two arrangements of masked softmax attention (AttnSpec) agree wherever every input entry is a real number and every
  sequence has at least one unmasked key.
-/
import proofs.«402769_j1005022347679_4_alg».proof.Proof.AttnSpec
import Mathlib.Data.EReal.Operations
import Mathlib.Data.Finset.Fold
import Mathlib.Algebra.Order.BigOperators.Group.Finset
import Mathlib.Analysis.SpecialFunctions.Exp

noncomputable section

open scoped BigOperators

namespace Cert.Attn

open Idealize.ShloMosaic Idealize.ShloMosaic.ValueIdx

/-- The coercion of the reals into the extended reals commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale is a real number: the word denotes `2⁻⁵`. -/
private theorem c0_real : ∃ r : ℝ, c0 = (r : EReal) := by
  refine ⟨1 / 32, ?_⟩
  simp [c0, Ideal.ofBits, Ideal.ieee, -EReal.coe_mul]; norm_num

/-- Every projection entry is a real number: a finite sum of products of reals. -/
private theorem proj_real (X : SX.Idx → EReal) (W : SW.Idx → EReal)
    (hX : ∀ i, ∃ r : ℝ, X i = (r : EReal)) (hW : ∀ i, ∃ r : ℝ, W i = (r : EReal))
    (b : Fin 8) (t : Fin 2048) (h : Fin 64) : ∃ r : ℝ, proj X W b t h = (r : EReal) := by
  choose x hx using hX
  choose w hw using hW
  refine ⟨∑ c : Fin 1024, x (ix3 b t c) * w (ix2 h c), ?_⟩
  rw [proj, coe_sum]
  refine Finset.sum_congr rfl fun c _ => ?_
  rw [hx, hw, EReal.coe_mul]

/-- The two orders of scaling give the same real number: `∑ (q·c)·k = (∑ q·k)·c`. -/
private theorem dot_real (X : SX.Idx → EReal) (Wq Wk : SW.Idx → EReal)
    (hX : ∀ i, ∃ r : ℝ, X i = (r : EReal)) (hq : ∀ i, ∃ r : ℝ, Wq i = (r : EReal))
    (hk : ∀ i, ∃ r : ℝ, Wk i = (r : EReal)) (b : Fin 8) (t s : Fin 2048) :
    ∃ r : ℝ, (∑ d : Fin 64, (proj X Wq b t d * c0) * proj X Wk b s d) = (r : EReal) ∧
      (∑ d : Fin 64, proj X Wq b t d * proj X Wk b s d) * c0 = (r : EReal) := by
  obtain ⟨c, hc⟩ := c0_real
  choose q hq' using proj_real X Wq hX hq b t
  choose k hk' using proj_real X Wk hX hk b s
  refine ⟨(∑ d : Fin 64, q d * k d) * c, ?_, ?_⟩
  · rw [Finset.sum_mul, coe_sum]
    refine Finset.sum_congr rfl fun d _ => ?_
    rw [hq', hk', hc, ← EReal.coe_mul, ← EReal.coe_mul]
    congr 1
    ring
  · rw [hc, EReal.coe_mul, coe_sum]
    congr 1
    refine Finset.sum_congr rfl fun d _ => ?_
    rw [hq', hk', EReal.coe_mul]

/-- The kernel's score is the reference's score, key by key. -/
private theorem kscore_eq_score (X : SX.Idx → EReal) (Wq Wk : SW.Idx → EReal) (M : SM.Idx → BitVec 1)
    (hX : ∀ i, ∃ r : ℝ, X i = (r : EReal)) (hq : ∀ i, ∃ r : ℝ, Wq i = (r : EReal))
    (hk : ∀ i, ∃ r : ℝ, Wk i = (r : EReal)) (b : Fin 8) (t s : Fin 2048) :
    kscore X Wq Wk M b t s = score X Wq Wk M b t s := by
  obtain ⟨r, h1, h2⟩ := dot_real X Wq Wk hX hq hk b t s
  unfold kscore score maskAdd
  rw [h1, h2]
  split_ifs
  · exact EReal.add_bot _
  · exact add_zero _

/-- A score is `-∞` or a real number, and a real number on an unmasked key. -/
private theorem score_cases (X : SX.Idx → EReal) (Wq Wk : SW.Idx → EReal) (M : SM.Idx → BitVec 1)
    (hX : ∀ i, ∃ r : ℝ, X i = (r : EReal)) (hq : ∀ i, ∃ r : ℝ, Wq i = (r : EReal))
    (hk : ∀ i, ∃ r : ℝ, Wk i = (r : EReal)) (b : Fin 8) (t s : Fin 2048) :
    (score X Wq Wk M b t s = ⊥ ∨ ∃ r : ℝ, score X Wq Wk M b t s = (r : EReal)) ∧
      (M (ix2 b s) ≠ 1#1 → ∃ r : ℝ, score X Wq Wk M b t s = (r : EReal)) := by
  obtain ⟨r, _, h2⟩ := dot_real X Wq Wk hX hq hk b t s
  unfold score
  rw [h2]
  split_ifs with h
  · exact ⟨Or.inl rfl, fun h' => absurd h h'⟩
  · exact ⟨Or.inr ⟨r, rfl⟩, fun _ => ⟨r, rfl⟩⟩

/-- The fold of `max` from `-∞` over a family with no `+∞` and at least one real member is a real number. -/
private theorem fold_real {S : Type} [Fintype S] (sc : S → EReal)
    (hsc : ∀ s, sc s ≠ ⊤) (s₀ : S) (h₀ : sc s₀ ≠ ⊥) :
    ∃ m : ℝ, (Finset.univ : Finset S).fold max ⊥ sc = (m : EReal) := by
  have hb : (Finset.univ : Finset S).fold max ⊥ sc ≠ ⊥ := by
    intro h
    have hle : sc s₀ ≤ (Finset.univ : Finset S).fold max ⊥ sc :=
      (Finset.le_fold_max _).2 (Or.inr ⟨s₀, Finset.mem_univ _, le_rfl⟩)
    rw [h] at hle
    exact h₀ (le_bot_iff.1 hle)
  have ht : (Finset.univ : Finset S).fold max ⊥ sc ≠ ⊤ := by
    have hlt : (Finset.univ : Finset S).fold max ⊥ sc < ⊤ :=
      (Finset.fold_max_lt _).2 ⟨bot_lt_top, fun x _ => lt_top_iff_ne_top.2 (hsc x)⟩
    exact hlt.ne
  exact ⟨_, (EReal.coe_toReal ht hb).symm⟩

/-- The law of one row: with scores that are real or `-∞`, at least one real, a real shift `m` and real values,
    dividing each weight by the row's sum before the product with the values is dividing the sum of products after. -/
private theorem row_law {S : Type} [Fintype S] (sc v : S → EReal)
    (hv : ∀ s, ∃ r : ℝ, v s = (r : EReal))
    (hsc : ∀ s, sc s = ⊥ ∨ ∃ r : ℝ, sc s = (r : EReal)) (s₀ : S) (h₀ : ∃ r : ℝ, sc s₀ = (r : EReal))
    (m : EReal) (hm : ∃ r : ℝ, m = (r : EReal)) :
    Ideal.div (∑ s, Ideal.exp (sc s - m) * v s) (∑ s, Ideal.exp (sc s - m))
      = ∑ s, Ideal.div (Ideal.exp (sc s - m)) (∑ s', Ideal.exp (sc s' - m)) * v s := by
  obtain ⟨mr, rfl⟩ := hm
  have he : ∀ s, ∃ e : ℝ, 0 ≤ e ∧ Ideal.exp (sc s - (mr : EReal)) = (e : EReal) := by
    intro s
    rcases hsc s with h | ⟨r, h⟩
    · exact ⟨0, le_rfl, by rw [h, EReal.bot_sub, Ideal.exp_bot, EReal.coe_zero]⟩
    · exact ⟨Real.exp (r - mr), (Real.exp_pos _).le, by rw [h, ← EReal.coe_sub, Ideal.exp_coe]⟩
  choose e he0 he using he
  choose w hw using hv
  have hpos : 0 < ∑ s, e s := by
    obtain ⟨r, hr⟩ := h₀
    have h1 : 0 < e s₀ := by
      have h2 := he s₀
      rw [hr, ← EReal.coe_sub, Ideal.exp_coe] at h2
      have h3 : Real.exp (r - mr) = e s₀ := EReal.coe_injective h2
      rw [← h3]; exact Real.exp_pos _
    exact Finset.sum_pos' (fun s _ => he0 s) ⟨s₀, Finset.mem_univ _, h1⟩
  simp only [he, hw]
  have hl : (∑ s, (e s : EReal)) = ((∑ s, e s : ℝ) : EReal) := (coe_sum _ _).symm
  rw [hl, Ideal.div_coe hpos.ne']
  simp only [Ideal.div_coe hpos.ne', ← EReal.coe_mul, ← coe_sum]
  congr 1
  rw [Finset.sum_mul]
  exact Finset.sum_congr rfl fun s _ => by ring

/-- One entry: the kernel's arrangement is the reference's. -/
private theorem GKc_eq_Gc (X : SX.Idx → EReal) (Wq Wk Wv : SW.Idx → EReal) (M : SM.Idx → BitVec 1)
    (hX : ∀ i, ∃ r : ℝ, X i = (r : EReal)) (hq : ∀ i, ∃ r : ℝ, Wq i = (r : EReal))
    (hk : ∀ i, ∃ r : ℝ, Wk i = (r : EReal)) (hv : ∀ i, ∃ r : ℝ, Wv i = (r : EReal))
    (hM : ∀ b : Fin 8, ∃ s : Fin 2048, M (ix2 b s) ≠ 1#1) (b : Fin 8) (t : Fin 2048) (h : Fin 64) :
    GKc X Wq Wk Wv M b t h = Gc X Wq Wk Wv M b t h := by
  have hks : kscore X Wq Wk M b t = score X Wq Wk M b t :=
    funext fun s => kscore_eq_score X Wq Wk M hX hq hk b t s
  obtain ⟨s₀, hs₀⟩ := hM b
  have hsc := fun s => (score_cases X Wq Wk M hX hq hk b t s).1
  have h₀ := (score_cases X Wq Wk M hX hq hk b t s₀).2 hs₀
  have hm : ∃ r : ℝ, rowMax (score X Wq Wk M b t) = (r : EReal) := by
    refine fold_real (score X Wq Wk M b t) (fun s => ?_) s₀ ?_
    · rcases hsc s with h' | ⟨r, h'⟩ <;> rw [h']
      · exact bot_ne_top
      · exact EReal.coe_ne_top r
    · obtain ⟨r, hr⟩ := h₀
      rw [hr]; exact EReal.coe_ne_bot r
  unfold GKc Gc
  rw [hks]
  exact row_law (score X Wq Wk M b t) (fun s => proj X Wv b s h) (fun s => proj_real X Wv hX hv b s h) hsc s₀ h₀ _ hm

theorem GK_eq_G (X : SX.Idx → EReal) (Wq Wk Wv : SW.Idx → EReal) (M : SM.Idx → BitVec 1)
    (hX : ∀ i, ∃ r : ℝ, X i = (r : EReal)) (hq : ∀ i, ∃ r : ℝ, Wq i = (r : EReal))
    (hk : ∀ i, ∃ r : ℝ, Wk i = (r : EReal)) (hv : ∀ i, ∃ r : ℝ, Wv i = (r : EReal))
    (hM : ∀ b : Fin 8, ∃ s : Fin 2048, M (ix2 b s) ≠ 1#1) :
    GK X Wq Wk Wv M = G X Wq Wk Wv M := by
  funext i
  exact GKc_eq_Gc X Wq Wk Wv M hX hq hk hv hM (i 0) (i 1) (i 2)

end Cert.Attn

end
-- ==== Proof.PreRead.lean ====
/-
  The precondition read back: every float input entry is a real number, and no sequence's mask row is all ones.
-/
import proofs.«402769_j1005022347679_4_alg».proof.Pre_finite_inputs
import proofs.«402769_j1005022347679_4_alg».proof.Proof.Gen.Pre_finite_inputs
import Idealize.ShloMosaic.PureOps.Ideal
import Idealize.ShloMosaic.PureOps.Reduce
import Idealize.ShloMosaic.Lib.ValueIdx
import Idealize.ShloMosaic.Lib.ReduceAll

noncomputable section

namespace Cert.Attn

open Idealize.ShloMosaic Idealize.ShloMosaic.ValueIdx

/-- An extended real whose absolute value max x (-x) is below the word 0x7F800000 (which is +∞) is a real number. -/
private theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  rw [max_lt_iff] at hlt
  induction x using EReal.rec with
  | bot => simp at hlt
  | coe r => exact ⟨r, rfl⟩
  | top => simp at hlt

/-- The scalar shape has one index. -/
private theorem subsingleton_scalar : Subsingleton Cert.Pre_finite_inputs.S_.Idx :=
  ⟨fun _ _ => funext fun d => d.elim0⟩

/-- jnp.all(|x| < +∞) = 1 over a whole array: every entry of x is a real number. -/
private theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) :
    ∀ i, ∃ r : ℝ, x i = (r : EReal) := by
  haveI := subsingleton_scalar
  intro i
  exact real_of_abs_lt_inf (x i) (Host.reduce_andi_all _ _ hr hu ix0 e i)

/-- A left fold by and over one-bit words, from 1 over entries all equal to 1, is 1. -/
private theorem foldl_andi_of_all {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, h => by
    rw [List.foldl_cons]
    refine foldl_andi_of_all f l _ ?_ (fun n hn => h n (List.mem_cons_of_mem _ hn))
    rw [hi, h a List.mem_cons_self]
    decide

/-- A mask row of all ones reduces by and along the row to 1. -/
private theorem row_all_ones (x4 : IVec Cert.Pre_finite_inputs.S8x2048 1)
    (hr : Cert.Pre_finite_inputs.S8x2048.ReducesTo [1] Cert.Pre_finite_inputs.S8)
    (hu : 0 < Cert.Pre_finite_inputs.S_.numel) (b : Fin 8) (hall : ∀ s : Fin 2048, x4 (ix2 b s) = 1#1) :
    Host.reduce IntOp.andi x4 (constantI Cert.Pre_finite_inputs.S_ 1 1#1) hr hu (ix1 b) = 1#1 := by
  rw [Host.reduce_eq_foldl]
  refine foldl_andi_of_all x4 _ _ rfl ?_
  intro i hi
  rw [List.mem_filter] at hi
  have hd : hr.drop i = ix1 b := by simpa using hi.2
  have hv : (hr.drop i 0 : Nat) = i 0 := Shape.ReducesTo.drop_apply_val hr i 0
  rw [hd] at hv
  have h0 : i 0 = b := Fin.ext hv.symm
  rw [eq_ix2 i, h0]
  exact hall (i 1)

theorem pre_read [Cert.Pre_finite_inputs.Facts]
    (x0 : FVec Ideal Cert.Pre_finite_inputs.S8x2048x1024 .f32) (x1 x2 x3 : FVec Ideal Cert.Pre_finite_inputs.S64x1024 .f32)
    (x4 : IVec Cert.Pre_finite_inputs.S8x2048 1)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ ∀ b : Fin 8, ∃ s : Fin 2048, x4 (ix2 b s) ≠ 1#1 := by
  have h0 := congrFun h ValueIdx.ix0
  dsimp only [Cert.Pre_finite_inputs.fn, Cert.Pre_finite_inputs.fn_part1] at h0
  simp only [andi, IntOp.andi_eq_one] at h0
  obtain ⟨⟨⟨⟨c0, c1⟩, c2⟩, c3⟩, c4⟩ := h0
  refine ⟨all_real x0 _ _ _ c0, all_real x1 _ _ _ c1, all_real x2 _ _ _ c2, all_real x3 _ _ _ c3, ?_⟩
  intro b
  by_contra hcon
  push Not at hcon
  haveI := subsingleton_scalar
  -- the outer jnp.all: the negated row reduce is 1 at row b
  have hn := Host.reduce_andi_all _ _ _ _ ix0 c4 (ix1 b)
  change ~~~(Host.reduce IntOp.andi x4 _ _ _ (ix1 b)) = 1#1 at hn
  -- but a row of all ones reduces to 1
  rw [row_all_ones x4 _ _ b hcon] at hn
  exact absurd hn (by decide)

end Cert.Attn

end
-- ==== Proof.RefValue.lean ====
/-
  The reference's result, read one operation at a time, is the reference arrangement `G` of AttnSpec.
-/
import proofs.«402769_j1005022347679_4_alg».proof.Proof.Gen.ReferenceIdeal.Read
import proofs.«402769_j1005022347679_4_alg».proof.Proof.AttnSpec
import Idealize.ShloMosaic.PureOps.Reduce

noncomputable section

open scoped BigOperators

namespace Cert.Attn

open Idealize.ShloMosaic Idealize.ShloMosaic.ValueIdx Cert.ReferenceIdeal Cert.ReferenceIdeal.Read

/-! ### The three projections -/

/-- The query projection at (b, t, d). -/
private theorem v0_at (x0 : FVec Ideal S8x2048x1024 .f32) (x1 : FVec Ideal S64x1024 .f32) (b : Fin 8) (t : Fin 2048) (d : Fin 64) :
    val_main_v0 (F := Ideal) x0 x1 (ix3 b t d) = proj x0 x1 b t d := by
  refine (val_main_v0_apply x0 x1 (ix3 b t d)).trans ?_
  unfold proj
  refine Finset.sum_congr rfl fun c _ => ?_
  have el : lidx_main_v0 (ix3 b t d) c = ix3 b t c :=
    funext fun a => Fin.ext (by match a with | ⟨0, _⟩ => rfl | ⟨1, _⟩ => rfl | ⟨2, _⟩ => rfl)
  have er : ridx_main_v0 (ix3 b t d) c = ix2 d c :=
    funext fun a => Fin.ext (by match a with | ⟨0, _⟩ => rfl | ⟨1, _⟩ => rfl)
  rw [el, er]

/-- The key projection at (b, s, d). -/
private theorem v1_at (x0 : FVec Ideal S8x2048x1024 .f32) (x2 : FVec Ideal S64x1024 .f32) (b : Fin 8) (s : Fin 2048) (d : Fin 64) :
    val_main_v1 (F := Ideal) x0 x2 (ix3 b s d) = proj x0 x2 b s d := by
  refine (val_main_v1_apply x0 x2 (ix3 b s d)).trans ?_
  unfold proj
  refine Finset.sum_congr rfl fun c _ => ?_
  have el : lidx_main_v1 (ix3 b s d) c = ix3 b s c :=
    funext fun a => Fin.ext (by match a with | ⟨0, _⟩ => rfl | ⟨1, _⟩ => rfl | ⟨2, _⟩ => rfl)
  have er : ridx_main_v1 (ix3 b s d) c = ix2 d c :=
    funext fun a => Fin.ext (by match a with | ⟨0, _⟩ => rfl | ⟨1, _⟩ => rfl)
  rw [el, er]

/-- The value projection at (b, s, h). -/
private theorem v2_at (x0 : FVec Ideal S8x2048x1024 .f32) (x3 : FVec Ideal S64x1024 .f32) (b : Fin 8) (s : Fin 2048) (h : Fin 64) :
    val_main_v2 (F := Ideal) x0 x3 (ix3 b s h) = proj x0 x3 b s h := by
  refine (val_main_v2_apply x0 x3 (ix3 b s h)).trans ?_
  unfold proj
  refine Finset.sum_congr rfl fun c _ => ?_
  have el : lidx_main_v2 (ix3 b s h) c = ix3 b s c :=
    funext fun a => Fin.ext (by match a with | ⟨0, _⟩ => rfl | ⟨1, _⟩ => rfl | ⟨2, _⟩ => rfl)
  have er : ridx_main_v2 (ix3 b s h) c = ix2 h c :=
    funext fun a => Fin.ext (by match a with | ⟨0, _⟩ => rfl | ⟨1, _⟩ => rfl)
  rw [el, er]

/-! ### The scores -/

/-- The unscaled score of query t against key s: the product of the two projections summed over the head axis. -/
private theorem v3_at (x0 : FVec Ideal S8x2048x1024 .f32) (x1 x2 : FVec Ideal S64x1024 .f32) (b : Fin 8) (t s : Fin 2048) :
    val_main_v3 (F := Ideal) x0 x1 x2 (ix3 b t s) = ∑ d : Fin 64, proj x0 x1 b t d * proj x0 x2 b s d := by
  refine (val_main_v3_apply x0 x1 x2 (ix3 b t s)).trans ?_
  refine Finset.sum_congr rfl fun d _ => ?_
  have el : lidx_main_v3 (ix3 b t s) d = ix3 b t d :=
    funext fun a => Fin.ext (by match a with | ⟨0, _⟩ => rfl | ⟨1, _⟩ => rfl | ⟨2, _⟩ => rfl)
  have er : ridx_main_v3 (ix3 b t s) d = ix3 b s d :=
    funext fun a => Fin.ext (by match a with | ⟨0, _⟩ => rfl | ⟨1, _⟩ => rfl | ⟨2, _⟩ => rfl)
  rw [el, er, v0_at, v1_at]

/-- The scaled score. -/
private theorem v5_at (x0 : FVec Ideal S8x2048x1024 .f32) (x1 x2 : FVec Ideal S64x1024 .f32) (b : Fin 8) (t s : Fin 2048) :
    val_main_v5 (F := Ideal) x0 x1 x2 (ix3 b t s) = (∑ d : Fin 64, proj x0 x1 b t d * proj x0 x2 b s d) * c0 := by
  refine (val_main_v5_apply (F := Ideal) x0 x1 x2 (ix3 b t s)).trans ?_
  rw [v3_at, val_main_v4_apply (F := Ideal), val_main_cst_apply (F := Ideal), Ideal.mulf_def, Ideal.ofBits_def]
  rfl

/-- The word of minus infinity is the bottom element. -/
private theorem ofBits_negInf : Ideal.ofBits .f32 0xFF800000#32 = (⊥ : EReal) := by
  simp [Ideal.ofBits, Ideal.ieee]

/-- The mask bit read at (b, t, s) is the mask at (b, s). -/
private theorem mask_at (x4 : IVec S8x2048 1) (b : Fin 8) (t s : Fin 2048) :
    val_main_call0_v1 (F := Ideal) x4 (ix3 b t s) = x4 (ix2 b s) := by
  refine (val_main_call0_v1_apply (F := Ideal) x4 (ix3 b t s)).trans ?_
  refine (val_main_v6_apply (F := Ideal) x4 _).trans ?_
  exact congrArg x4 (funext fun a => Fin.ext (by match a with | ⟨0, _⟩ => rfl | ⟨1, _⟩ => rfl))

/-- The fill value is minus infinity everywhere. -/
private theorem fill_at (i : S8x2048x2048.Idx) : val_main_call0_v2 (F := Ideal) i = (⊥ : EReal) := by
  rw [val_main_call0_v2_apply (F := Ideal), val_main_call0_v0_apply (F := Ideal), val_main_cst_0_apply (F := Ideal), Ideal.ofBits_def, ofBits_negInf]

/-- The masked score. -/
private theorem v7_at (x0 : FVec Ideal S8x2048x1024 .f32) (x1 x2 : FVec Ideal S64x1024 .f32) (x4 : IVec S8x2048 1) (b : Fin 8) (t s : Fin 2048) :
    val_main_v7 (F := Ideal) x0 x1 x2 x4 (ix3 b t s) = score x0 x1 x2 x4 b t s := by
  refine (val_main_v7_apply (F := Ideal) x0 x1 x2 x4 (ix3 b t s)).trans ?_
  rw [mask_at, fill_at, v5_at]
  rfl

/-! ### The row maximum -/

/-- The reduced index (b, t) with key k put back is (b, t, k). -/
private theorem lift_ix3 (hR : S8x2048x2048.Reduces [2] S8x2048) (b : Fin 8) (t : Fin 2048) (k : Fin (S8x2048x2048.size 2)) :
    hR.lift (ix2 b t) k = ix3 b t (⟨k.val, k.isLt⟩ : Fin 2048) := by
  funext c; apply Fin.ext
  match c with | ⟨0, _⟩ => rfl | ⟨1, _⟩ => rfl | ⟨2, _⟩ => rfl

/-- The maximum reduce over the key axis, at (b, t), is the fold of max from minus infinity over the row's masked scores. -/
private theorem v8_at (x0 : FVec Ideal S8x2048x1024 .f32) (x1 x2 : FVec Ideal S64x1024 .f32) (x4 : IVec S8x2048 1) (b : Fin 8) (t : Fin 2048) :
    val_main_v8 (F := Ideal) x0 x1 x2 x4 (ix2 b t) = rowMax (score x0 x1 x2 x4 b t) := by
  have hR : S8x2048x2048.Reduces [2] S8x2048 := by decide
  unfold val_main_v8 rowMax
  refine (Host.reduce_eq_fold_single (FloatOps.maximumf (F := Ideal) (φ := .f32))
    (val_main_v7 (F := Ideal) x0 x1 x2 x4 : FVec Ideal S8x2048x2048 .f32) (val_main_cst_1 (F := Ideal))
    Gen.reducesTo_S8x2048x2048_S8x2048_d2 hR Gen.h_S_ (ix2 b t)).trans ?_
  have hi : val_main_cst_1 (F := Ideal) (Shape.Idx.first Gen.h_S_) = (⊥ : EReal) := by
    rw [val_main_cst_1_apply (F := Ideal), Ideal.ofBits_def, ofBits_negInf]
  have hf : (val_main_v7 (F := Ideal) x0 x1 x2 x4 ∘ hR.lift (ix2 b t)) = fun k : Fin 2048 => score x0 x1 x2 x4 b t k :=
    funext fun k => (congrArg (val_main_v7 (F := Ideal) x0 x1 x2 x4) (lift_ix3 hR b t k)).trans (v7_at x0 x1 x2 x4 b t _)
  exact (congrArg (fun z : EReal => Finset.fold max z (val_main_v7 (F := Ideal) x0 x1 x2 x4 ∘ hR.lift (ix2 b t))
      (Finset.univ : Finset (Fin 2048))) hi).trans
    (congrArg (fun f => Finset.fold max (⊥ : EReal) f (Finset.univ : Finset (Fin 2048))) hf)

/-- Taking the maximum with minus infinity once more changes nothing. -/
private theorem v10_at (x0 : FVec Ideal S8x2048x1024 .f32) (x1 x2 : FVec Ideal S64x1024 .f32) (x4 : IVec S8x2048 1) (b : Fin 8) (t : Fin 2048) :
    val_main_v10 (F := Ideal) x0 x1 x2 x4 (ix2 b t) = rowMax (score x0 x1 x2 x4 b t) := by
  refine (val_main_v10_apply (F := Ideal) x0 x1 x2 x4 (ix2 b t)).trans ?_
  rw [v8_at, val_main_v9_apply (F := Ideal), val_main_cst_2_apply (F := Ideal), Ideal.maximumf_def, Ideal.ofBits_def, ofBits_negInf]
  exact max_eq_right bot_le

/-- The row maximum broadcast back along the key axis. -/
private theorem v12_at (x0 : FVec Ideal S8x2048x1024 .f32) (x1 x2 : FVec Ideal S64x1024 .f32) (x4 : IVec S8x2048 1) (b : Fin 8) (t s : Fin 2048) :
    val_main_v12 (F := Ideal) x0 x1 x2 x4 (ix3 b t s) = rowMax (score x0 x1 x2 x4 b t) := by
  refine (val_main_v12_apply (F := Ideal) x0 x1 x2 x4 (ix3 b t s)).trans ?_
  refine (val_main_v11_apply (F := Ideal) x0 x1 x2 x4 _).trans ?_
  refine (congrArg (val_main_v10 (F := Ideal) x0 x1 x2 x4) (?_ : _ = ix2 b t)).trans (v10_at x0 x1 x2 x4 b t)
  exact funext fun a => Fin.ext (by match a with | ⟨0, _⟩ => rfl | ⟨1, _⟩ => rfl)

/-! ### The softmax weights -/

/-- The exponential of the score less the row maximum. -/
private theorem v14_at (x0 : FVec Ideal S8x2048x1024 .f32) (x1 x2 : FVec Ideal S64x1024 .f32) (x4 : IVec S8x2048 1) (b : Fin 8) (t s : Fin 2048) :
    val_main_v14 (F := Ideal) x0 x1 x2 x4 (ix3 b t s)
      = Ideal.exp (score x0 x1 x2 x4 b t s - rowMax (score x0 x1 x2 x4 b t)) := by
  refine (val_main_v14_apply (F := Ideal) x0 x1 x2 x4 (ix3 b t s)).trans ?_
  rw [val_main_v13_apply (F := Ideal), v7_at, v12_at, Ideal.subf_def, Ideal.hostUnary_exp_def]

/-- The row's sum of exponentials. -/
private theorem v15_at (x0 : FVec Ideal S8x2048x1024 .f32) (x1 x2 : FVec Ideal S64x1024 .f32) (x4 : IVec S8x2048 1) (b : Fin 8) (t : Fin 2048) :
    val_main_v15 (F := Ideal) x0 x1 x2 x4 (ix2 b t)
      = ∑ s' : Fin 2048, Ideal.exp (score x0 x1 x2 x4 b t s' - rowMax (score x0 x1 x2 x4 b t)) := by
  refine (val_main_v15_apply x0 x1 x2 x4 (ix2 b t)).trans ?_
  rw [val_main_cst_3_apply (F := Ideal), Ideal.ofBits_def, Ideal.ofBits_zero_f32, zero_add]
  refine Finset.sum_congr rfl fun s' _ => ?_
  refine (congrArg (val_main_v14 (F := Ideal) x0 x1 x2 x4) (?_ : idx_main_v15 (ix2 b t) s' = ix3 b t s')).trans (v14_at x0 x1 x2 x4 b t s')
  exact funext fun a => Fin.ext (by match a with | ⟨0, _⟩ => rfl | ⟨1, _⟩ => rfl | ⟨2, _⟩ => rfl)

/-- The row's sum broadcast back along the key axis. -/
private theorem v17_at (x0 : FVec Ideal S8x2048x1024 .f32) (x1 x2 : FVec Ideal S64x1024 .f32) (x4 : IVec S8x2048 1) (b : Fin 8) (t s : Fin 2048) :
    val_main_v17 (F := Ideal) x0 x1 x2 x4 (ix3 b t s)
      = ∑ s' : Fin 2048, Ideal.exp (score x0 x1 x2 x4 b t s' - rowMax (score x0 x1 x2 x4 b t)) := by
  refine (val_main_v17_apply (F := Ideal) x0 x1 x2 x4 (ix3 b t s)).trans ?_
  refine (val_main_v16_apply (F := Ideal) x0 x1 x2 x4 _).trans ?_
  refine (congrArg (val_main_v15 (F := Ideal) x0 x1 x2 x4) (?_ : _ = ix2 b t)).trans (v15_at x0 x1 x2 x4 b t)
  exact funext fun a => Fin.ext (by match a with | ⟨0, _⟩ => rfl | ⟨1, _⟩ => rfl)

/-- The normalised weight of key s for query t. -/
private theorem v18_at (x0 : FVec Ideal S8x2048x1024 .f32) (x1 x2 : FVec Ideal S64x1024 .f32) (x4 : IVec S8x2048 1) (b : Fin 8) (t s : Fin 2048) :
    val_main_v18 (F := Ideal) x0 x1 x2 x4 (ix3 b t s)
      = Ideal.div (Ideal.exp (score x0 x1 x2 x4 b t s - rowMax (score x0 x1 x2 x4 b t)))
          (∑ s' : Fin 2048, Ideal.exp (score x0 x1 x2 x4 b t s' - rowMax (score x0 x1 x2 x4 b t))) := by
  refine (val_main_v18_apply (F := Ideal) x0 x1 x2 x4 (ix3 b t s)).trans ?_
  rw [v14_at, v17_at, Ideal.hostDivf_def]

/-! ### The result -/

theorem ref_eq (x0 : FVec Ideal S8x2048x1024 .f32) (x1 x2 x3 : FVec Ideal S64x1024 .f32) (x4 : IVec S8x2048 1) :
    val_main_v19 (F := Ideal) x0 x1 x2 x3 x4 = G x0 x1 x2 x3 x4 := by
  funext i
  obtain ⟨b, t, h, rfl⟩ : ∃ (b : Fin 8) (t : Fin 2048) (h : Fin 64), i = ix3 b t h := ⟨i 0, i 1, i 2, eq_ix3 i⟩
  refine (val_main_v19_apply x0 x1 x2 x3 x4 (ix3 b t h)).trans ?_
  show _ = Gc x0 x1 x2 x3 x4 b t h
  unfold Gc
  refine Finset.sum_congr rfl fun s _ => ?_
  have el : lidx_main_v19 (ix3 b t h) s = ix3 b t s :=
    funext fun a => Fin.ext (by match a with | ⟨0, _⟩ => rfl | ⟨1, _⟩ => rfl | ⟨2, _⟩ => rfl)
  have er : ridx_main_v19 (ix3 b t h) s = ix3 b s h :=
    funext fun a => Fin.ext (by match a with | ⟨0, _⟩ => rfl | ⟨1, _⟩ => rfl | ⟨2, _⟩ => rfl)
  rw [el, er, v18_at, v2_at]

end Cert.Attn

end
-- ==== Proof.KerPayload.lean ====
/-
  The kernel body's arithmetic read at an index: the three projections it stores in its scratch buffers, and one query
  chunk's masked softmax against all keys.
-/
import proofs.«402769_j1005022347679_4_alg».proof.Proof.Gen.KernelIdeal.Skeleton
import proofs.«402769_j1005022347679_4_alg».proof.Proof.AttnSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Attn

open Idealize.ShloMosaic Idealize.ShloMosaic.ValueIdx Cert.KernelIdeal Cert.KernelIdeal.Gen

/-! ### The projection matmul: [2048,1024] × [1024,64], contracting the left's axis 1 with the right's axis 0 -/

private theorem lhs_proj_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
private theorem lhs_proj_1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
private theorem rhs_proj_0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
private theorem rhs_proj_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- The projection matmul into the zero splat, read at (t, d): the sum over the 1024 embedding coordinates. -/
private theorem matmul_proj_apply {φ₁ φ₂ : FTy} (a : FVec Ideal S2048x1024 φ₁) (b : FVec Ideal S1024x64 φ₂) (t : Fin 2048) (d : Fin 64) :
    matmul dot_S2048x1024_S1024x64_S2048x64_1_0_0_1_n_n none a b (constant (F := Ideal) S2048x64 .f32 0x00000000#32) (ix2 t d)
      = ∑ c : Fin 1024, a (ix2 t c) * b (ix2 c d) := by
  simp only [matmul]
  rw [Ideal.matmul_constant_zero_apply, ← Equiv.sum_comp (ValueIdx.contrEquiv1 dot_S2048x1024_S1024x64_S2048x64_1_0_0_1_n_n 1024 rfl rfl).symm]
  refine Finset.sum_congr rfl fun k _ => ?_
  have hk := ValueIdx.contrEquiv1_symm_val dot_S2048x1024_S1024x64_S2048x64_1_0_0_1_n_n 1024 rfl rfl k
  have el : dot_S2048x1024_S1024x64_S2048x64_1_0_0_1_n_n.lhsIdx (ix2 t d) ((ValueIdx.contrEquiv1 dot_S2048x1024_S1024x64_S2048x64_1_0_0_1_n_n 1024 rfl rfl).symm k) = ix2 t k := funext fun a => Fin.ext (by
    match a with
    | ⟨0, _⟩ => exact lhs_proj_0 _ _
    | ⟨1, _⟩ => exact (lhs_proj_1 _ _).trans hk)
  have er : dot_S2048x1024_S1024x64_S2048x64_1_0_0_1_n_n.rhsIdx (ix2 t d) ((ValueIdx.contrEquiv1 dot_S2048x1024_S1024x64_S2048x64_1_0_0_1_n_n 1024 rfl rfl).symm k) = ix2 k d := funext fun a => Fin.ext (by
    match a with
    | ⟨0, _⟩ => exact (rhs_proj_0 _ _).trans hk
    | ⟨1, _⟩ => exact rhs_proj_1 _ _)
  rw [el, er]

/-! ### The score matmul: [256,64] × [2048,64], contracting both operands' axis 1 (q·kᵀ) -/

private theorem lhs_qk_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
private theorem lhs_qk_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
private theorem rhs_qk_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
private theorem rhs_qk_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- The score matmul into the zero splat, read at (r, s): the sum over the 64 head coordinates of query row r against key row s. -/
private theorem matmul_qk_apply {φ₁ φ₂ : FTy} (a : FVec Ideal S256x64 φ₁) (b : FVec Ideal S2048x64 φ₂) (r : Fin 256) (s : Fin 2048) :
    matmul dot_S256x64_S2048x64_S256x2048_1_1_0_0_n_n none a b (constant (F := Ideal) S256x2048 .f32 0x00000000#32) (ix2 r s)
      = ∑ d : Fin 64, a (ix2 r d) * b (ix2 s d) := by
  simp only [matmul]
  rw [Ideal.matmul_constant_zero_apply, ← Equiv.sum_comp (ValueIdx.contrEquiv1 dot_S256x64_S2048x64_S256x2048_1_1_0_0_n_n 64 rfl rfl).symm]
  refine Finset.sum_congr rfl fun k _ => ?_
  have hk := ValueIdx.contrEquiv1_symm_val dot_S256x64_S2048x64_S256x2048_1_1_0_0_n_n 64 rfl rfl k
  have el : dot_S256x64_S2048x64_S256x2048_1_1_0_0_n_n.lhsIdx (ix2 r s) ((ValueIdx.contrEquiv1 dot_S256x64_S2048x64_S256x2048_1_1_0_0_n_n 64 rfl rfl).symm k) = ix2 r k := funext fun a => Fin.ext (by
    match a with
    | ⟨0, _⟩ => exact lhs_qk_0 _ _
    | ⟨1, _⟩ => exact (lhs_qk_1 _ _).trans hk)
  have er : dot_S256x64_S2048x64_S256x2048_1_1_0_0_n_n.rhsIdx (ix2 r s) ((ValueIdx.contrEquiv1 dot_S256x64_S2048x64_S256x2048_1_1_0_0_n_n 64 rfl rfl).symm k) = ix2 s k := funext fun a => Fin.ext (by
    match a with
    | ⟨0, _⟩ => exact rhs_qk_0 _ _
    | ⟨1, _⟩ => exact (rhs_qk_1 _ _).trans hk)
  rw [el, er]

/-! ### The value matmul: [256,2048] × [2048,64], contracting the left's axis 1 with the right's axis 0 -/

private theorem lhs_pv_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
private theorem lhs_pv_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
private theorem rhs_pv_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
private theorem rhs_pv_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The value matmul into the zero splat, read at (r, h): the sum over the 2048 keys. -/
private theorem matmul_pv_apply {φ₁ φ₂ : FTy} (a : FVec Ideal S256x2048 φ₁) (b : FVec Ideal S2048x64 φ₂) (r : Fin 256) (h : Fin 64) :
    matmul dot_S256x2048_S2048x64_S256x64_1_0_0_1_n_n none a b (constant (F := Ideal) S256x64 .f32 0x00000000#32) (ix2 r h)
      = ∑ s : Fin 2048, a (ix2 r s) * b (ix2 s h) := by
  simp only [matmul]
  rw [Ideal.matmul_constant_zero_apply, ← Equiv.sum_comp (ValueIdx.contrEquiv1 dot_S256x2048_S2048x64_S256x64_1_0_0_1_n_n 2048 rfl rfl).symm]
  refine Finset.sum_congr rfl fun k _ => ?_
  have hk := ValueIdx.contrEquiv1_symm_val dot_S256x2048_S2048x64_S256x64_1_0_0_1_n_n 2048 rfl rfl k
  have el : dot_S256x2048_S2048x64_S256x64_1_0_0_1_n_n.lhsIdx (ix2 r h) ((ValueIdx.contrEquiv1 dot_S256x2048_S2048x64_S256x64_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S256x2048_S2048x64_S256x64_1_0_0_1_n_n.rhsIdx (ix2 r h) ((ValueIdx.contrEquiv1 dot_S256x2048_S2048x64_S256x64_1_0_0_1_n_n 2048 rfl rfl).symm k) = ix2 k h := funext fun a => Fin.ext (by
    match a with
    | ⟨0, _⟩ => exact (rhs_pv_0 _ _).trans hk
    | ⟨1, _⟩ => exact rhs_pv_1 _ _)
  rw [el, er]

/-! ### The keepdims column forms, and the lane reductions of a [256,2048] vector -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The f32 word `0xFF800000` is `-∞`. -/
private theorem ofBits_negInf : Ideal.ofBits .f32 0xFF800000#32 = ⊥ := by simp [Ideal.ofBits, Ideal.ieee]

/-- The index over row `r` with lane coordinate `k` inserted is `(r, k)`. -/
private theorem lift_row (r : Fin 256) (k : Fin 2048) : reduces_S256x2048_S256.lift (ix1 r) k = ix2 r k :=
  funext fun a => Fin.ext (by match a with | ⟨0, _⟩ => rfl | ⟨1, _⟩ => rfl)

/-- The lane maximum from `-∞` of a [256,2048] vector, read at row `r`: the row's maximum. -/
private theorem rowMax_apply (v : FVec Ideal S256x2048 .f32) (hφ : FKind.Formats .f32)
    (hacc : (0xFF800000#32 : BitVec 32) = FKind.maximumf.neutral .f32 hφ) (r : Fin 256) :
    multiReduction (F := Ideal) .maximumf [1] S256 v 0xFF800000#32 reduces_S256x2048_S256 hφ hacc (ix1 r)
      = rowMax (fun s => v (ix2 r s)) := by
  refine (Ideal.multiReduction_maximumf_single v _ reduces_S256x2048_S256 hφ hacc (ix1 r)).trans ?_
  show (Finset.univ : Finset (Fin 2048)).fold max (Ideal.ofBits .f32 0xFF800000#32) (fun k => v (reduces_S256x2048_S256.lift (ix1 r) k)) = _
  rw [ofBits_negInf]
  exact Finset.fold_congr fun k _ => congrArg v (lift_row r k)

/-- The lane sum of a [256,2048] vector, read at row `r`: the row's sum. -/
private theorem rowSum_apply (v : FVec Ideal S256x2048 .f32) (hφ : FKind.Formats .f32)
    (hacc : (0x00000000#32 : BitVec 32) = FKind.add.neutral .f32 hφ) (r : Fin 256) :
    multiReduction (F := Ideal) .add [1] S256 v 0x00000000#32 reduces_S256x2048_S256 hφ hacc (ix1 r)
      = ∑ s : Fin 2048, v (ix2 r s) := by
  refine (Ideal.multiReduction_add_single v _ reduces_S256x2048_S256 hφ hacc (ix1 r)).trans ?_
  exact Finset.sum_congr rfl fun k _ => congrArg v (lift_row r k)

/-! ### The three projections and the mask row -/

/-- A projection matmul of the body, read at (t, d): its left operand is the token block with the unit axis dropped, its
    right operand the weight; both format changes are the identity. -/
private theorem proj_apply (x : FVec Ideal S1x2048x1024 .f32) (w : FVec Ideal S1024x64 .f32) (t : Fin 2048) (d : Fin 64) :
    matmul dot_S2048x1024_S1024x64_S2048x64_1_0_0_1_n_n none (k0_pay1 (F := Ideal) x)
        (truncf .bf16 (shapeCast S1024x64 w shapeCasts_S1024x64_S1024x64) bitsLt_bf16_f32)
        (constant (F := Ideal) S2048x64 .f32 0x00000000#32) (ix2 t d)
      = ∑ c : Fin 1024, x (ix3 (0 : Fin 1) t c) * w (ix2 c d) := by
  refine (matmul_proj_apply _ _ t d).trans ?_
  refine Finset.sum_congr rfl fun c _ => ?_
  rw [shapeCast_self]
  exact congrArg (· * w (ix2 c d)) (shapeCast_1ab_ab_apply x shapeCasts_S1x2048x1024_S2048x1024 t c)

/-- The scaled query projection the body stores in its first scratch buffer. -/
theorem pay2_apply (x : FVec Ideal S1x2048x1024 .f32) (w : FVec Ideal S1024x64 .f32) (t : Fin 2048) (d : Fin 64) :
    k0_pay2 (F := Ideal) x w (ix2 t d) = (∑ c : Fin 1024, x (ix3 (0 : Fin 1) t c) * w (ix2 c d)) * c0 := by
  unfold k0_pay2
  refine (congrFun (shapeCast_self _ _) (ix2 t d)).trans ?_
  exact congrArg (· * c0) (proj_apply x w t d)

/-- The key projection. -/
theorem pay3_apply (x : FVec Ideal S1x2048x1024 .f32) (w : FVec Ideal S1024x64 .f32) (t : Fin 2048) (d : Fin 64) :
    k0_pay3 (F := Ideal) x w (ix2 t d) = ∑ c : Fin 1024, x (ix3 (0 : Fin 1) t c) * w (ix2 c d) := by
  unfold k0_pay3
  refine (congrFun (shapeCast_self _ _) (ix2 t d)).trans ?_
  exact proj_apply x w t d

/-- The value projection. -/
theorem pay4_apply (x : FVec Ideal S1x2048x1024 .f32) (w : FVec Ideal S1024x64 .f32) (t : Fin 2048) (d : Fin 64) :
    k0_pay4 (F := Ideal) x w (ix2 t d) = ∑ c : Fin 1024, x (ix3 (0 : Fin 1) t c) * w (ix2 c d) := by
  unfold k0_pay4
  refine (congrFun (shapeCast_self _ _) (ix2 t d)).trans ?_
  exact proj_apply x w t d

/-- The additive mask row with its unit axis dropped. -/
theorem pay5_apply (a : FVec Ideal S1x1x2048 .f32) (s : Fin 2048) :
    k0_pay5 (F := Ideal) a (ix2 (0 : Fin 1) s) = a (ix3 (0 : Fin 1) (0 : Fin 1) s) := by
  unfold k0_pay5
  exact shapeCast_1ab_ab_apply a shapeCasts_S1x1x2048_S1x2048 (0 : Fin 1) s

/-- One query row's scores against all keys: the products summed over the head, plus the additive mask. -/
def csc (mrow : FVec Ideal S1x2048 .f32) (q : FVec Ideal S256x64 .bf16) (k : FVec Ideal S2048x64 .bf16) (r : Fin 256)
    (s : Fin 2048) : EReal :=
  (∑ d : Fin 64, q (ix2 r d) * k (ix2 s d)) + mrow (ix2 (0 : Fin 1) s)

/-! ### One query chunk -/

/-- The chunk's score matrix: the query chunk against all keys, plus the mask row on every query row. -/
private def scv (mrow : FVec Ideal S1x2048 .f32) (q : FVec Ideal S256x64 .bf16) (k : FVec Ideal S2048x64 .bf16) :
    FVec Ideal S256x2048 .f32 :=
  addf (matmul dot_S256x64_S2048x64_S256x2048_1_1_0_0_n_n none q k (constant (F := Ideal) S256x2048 .f32 0x00000000#32))
    (broadcastTo S256x2048 mrow broadcasts_S1x2048_S256x2048)

private theorem scv_apply (mrow : FVec Ideal S1x2048 .f32) (q : FVec Ideal S256x64 .bf16) (k : FVec Ideal S2048x64 .bf16)
    (r : Fin 256) (s : Fin 2048) : scv mrow q k (ix2 r s) = csc mrow q k r s :=
  congrArg₂ (· + ·) (matmul_qk_apply q k r s) (broadcastTo_1b_ab_apply mrow broadcasts_S1x2048_S256x2048 r s)

/-- The exponentials of the chunk's scores, each row shifted by its maximum. -/
private def exv (mrow : FVec Ideal S1x2048 .f32) (q : FVec Ideal S256x64 .bf16) (k : FVec Ideal S2048x64 .bf16) :
    FVec Ideal S256x2048 .f32 :=
  exp (subf (scv mrow q k)
    (broadcastTo S256x2048
      (shapeCast S256x1
        (multiReduction (F := Ideal) .maximumf [1] S256 (scv mrow q k) 0xFF800000#32 reduces_S256x2048_S256 (.inl rfl) rfl)
        shapeCasts_S256_S256x1)
      broadcasts_S256x1_S256x2048))

private theorem exv_apply (mrow : FVec Ideal S1x2048 .f32) (q : FVec Ideal S256x64 .bf16) (k : FVec Ideal S2048x64 .bf16)
    (r : Fin 256) (s : Fin 2048) :
    exv mrow q k (ix2 r s) = Ideal.exp (csc mrow q k r s - rowMax (csc mrow q k r)) := by
  refine congrArg Ideal.exp (congrArg₂ (· - ·) (scv_apply mrow q k r s) ?_)
  refine (broadcastTo_a1_ab_apply _ broadcasts_S256x1_S256x2048 r s).trans ?_
  refine (shapeCast_a_a1_apply _ shapeCasts_S256_S256x1 r (0 : Fin 1)).trans ?_
  refine (rowMax_apply (scv mrow q k) _ _ r).trans ?_
  exact congrArg rowMax (funext fun s' => scv_apply mrow q k r s')

/-- One query chunk's result entry: the exponentials of the max-shifted scores averaged against the values, divided by
    their sum. -/
theorem chunk_apply (mrow : FVec Ideal S1x2048 .f32) (q : FVec Ideal S256x64 .bf16) (k v : FVec Ideal S2048x64 .bf16)
    (r : Fin 256) (h : Fin 64) :
    k0_pay6 (F := Ideal) mrow q k v (ix3 (0 : Fin 1) r h)
      = Ideal.div (∑ s : Fin 2048, Ideal.exp (csc mrow q k r s - rowMax (csc mrow q k r)) * v (ix2 s h))
          (∑ s : Fin 2048, Ideal.exp (csc mrow q k r s - rowMax (csc mrow q k r))) := by
  have e : k0_pay6 (F := Ideal) mrow q k v
      = shapeCast S1x256x64
          (divf
            (matmul dot_S256x2048_S2048x64_S256x64_1_0_0_1_n_n none (truncf .bf16 (exv mrow q k) bitsLt_bf16_f32) v
              (constant (F := Ideal) S256x64 .f32 0x00000000#32))
            (broadcastTo S256x64
              (shapeCast S256x1
                (multiReduction (F := Ideal) .add [1] S256 (exv mrow q k) 0x00000000#32 reduces_S256x2048_S256 (.inl rfl) rfl)
                shapeCasts_S256_S256x1)
              broadcasts_S256x1_S256x64))
          shapeCasts_S256x64_S1x256x64 := rfl
  rw [e]
  refine (shapeCast_ab_1ab_apply _ shapeCasts_S256x64_S1x256x64 (0 : Fin 1) r h).trans ?_
  refine congrArg₂ Ideal.div ?_ ?_
  · refine (matmul_pv_apply _ v r h).trans ?_
    exact Finset.sum_congr rfl fun s _ => congrArg (· * v (ix2 s h)) (exv_apply mrow q k r s)
  · refine (broadcastTo_a1_ab_apply _ broadcasts_S256x1_S256x64 r h).trans ?_
    refine (shapeCast_a_a1_apply _ shapeCasts_S256_S256x1 r (0 : Fin 1)).trans ?_
    refine (rowSum_apply (exv mrow q k) _ _ r).trans ?_
    exact Finset.sum_congr rfl fun s _ => exv_apply mrow q k r s

end Cert.Attn

end
-- ==== Proof.KerBlock.lean ====
/-
  What one grid point of the kernel leaves in its output block, as one function of the blocks it loaded.

  The body first stores the three projections of its sequence (the scaled queries, the keys, the values: 2048 × 64 each)
  into scratch buffers, then for each of eight chunks of 256 query rows loads that chunk's rows of the first buffer and
  the whole of the other two, and stores the chunk's masked softmax average into rows 256·j … 256·j + 255 of the
  output block. So the block is covered by eight row slabs, and on every slab the stored value at row `256·j + r`,
  column `h` is ONE function of (row, column): `bout` below.
-/
import proofs.«402769_j1005022347679_4_alg».proof.Proof.Gen.KernelIdeal.Value
import proofs.«402769_j1005022347679_4_alg».proof.Proof.KerPayload
import Idealize.ShloMosaic.Lib.Pipeline.Value
import Idealize.ShloMosaic.Lib.Tactic

set_option maxRecDepth 16384

noncomputable section

open scoped BigOperators

namespace Cert.Attn

open Idealize.ShloMosaic Idealize.ShloMosaic.ValueIdx Idealize.ShloMosaic.Tactic Cert.KernelIdeal Cert.KernelIdeal.Gen

/-- The score of query row `t` against key row `s` of one sequence's block: scaled query times key, summed over the
    head, plus the additive mask at `s`. -/
def bscore (x0 : FVec Ideal S1x2048x1024 .f32) (x1 x2 : FVec Ideal S1024x64 .f32) (x4 : FVec Ideal S1x1x2048 .f32)
    (t s : Fin 2048) : EReal :=
  (∑ d : Fin 64, ((∑ c : Fin 1024, x0 (ix3 (0 : Fin 1) t c) * x1 (ix2 c d)) * c0)
      * (∑ c : Fin 1024, x0 (ix3 (0 : Fin 1) s c) * x2 (ix2 c d))) + x4 (ix3 (0 : Fin 1) (0 : Fin 1) s)

/-- One entry of the output block: the exponentials of the max-shifted scores averaged against the value projection,
    divided by their sum. -/
def bout (x0 : FVec Ideal S1x2048x1024 .f32) (x1 x2 x3 : FVec Ideal S1024x64 .f32) (x4 : FVec Ideal S1x1x2048 .f32)
    (t : Fin 2048) (h : Fin 64) : EReal :=
  Ideal.div (∑ s : Fin 2048, Ideal.exp (bscore x0 x1 x2 x4 t s - rowMax (bscore x0 x1 x2 x4 t))
        * (∑ c : Fin 1024, x0 (ix3 (0 : Fin 1) s c) * x3 (ix2 c h)))
    (∑ s : Fin 2048, Ideal.exp (bscore x0 x1 x2 x4 t s - rowMax (bscore x0 x1 x2 x4 t)))

/-- The output block as a function of its index. -/
def blkOut (x0 : FVec Ideal S1x2048x1024 .f32) (x1 x2 x3 : FVec Ideal S1024x64 .f32) (x4 : FVec Ideal S1x1x2048 .f32) :
    S1x2048x64.Idx → EReal :=
  fun y => bout x0 x1 x2 x3 x4 (y 1) (y 2)

theorem hz2 : (![0, 0] : Fin 2 → Nat) = fun _ => 0 := funext fun a => by fin_cases a <;> rfl
theorem hz3 : (![0, 0, 0] : Fin 3 → Nat) = fun _ => 0 := funext fun a => by fin_cases a <;> rfl

/-- A slab of 256 rows, starting at row `o`, loaded from a 2048 × 64 buffer that one whole store filled with `w`: row `r`
    of the slab is row `o + r` of `w`. -/
theorem rows_of_whole {sig : RefSig} {κ : Kind} {sp : Space} (v : View sig κ sp S2048x64 .bf16)
    (w : S2048x64.Idx → Elt Ideal .bf16) (inb0 : ∀ a, (![0, 0] : Fin 2 → Nat) a + S2048x64.size a ≤ S2048x64.size a)
    (o : Nat) (ho : o + 256 ≤ 2048) (inb : ∀ a, (![o, 0] : Fin 2 → Nat) a + S256x64.size a ≤ S2048x64.size a) (r : Fin 256) (d : Fin 64) :
    v.readCov [(⟨Rect.unit ![0, 0] S2048x64.size inb0, w⟩ : View.Piece (Elt Ideal) S2048x64 .bf16)]
        (Rect.unit (s := S2048x64) ![o, 0] S256x64.size inb).toLoadRect (ix2 r d)
      = w (ix2 ⟨o + r.val, by have := r.isLt; omega⟩ d) := by
  rw [View.readCov_eq_canon', View.canon_unit_zero hz2]
  refine congrArg w (funext fun a => Fin.ext ?_)
  match a with
  | ⟨0, _⟩ => simp only [LoadRect.idx_apply, Rect.emb_apply, Rect.off_unit, Rect.stride_unit, Nat.one_mul]; rfl
  | ⟨1, _⟩ => simp only [LoadRect.idx_apply, Rect.emb_apply, Rect.off_unit, Rect.stride_unit, Nat.one_mul]; simp

/-- ONE SLAB. Where the chunk's queries `q` are rows `o … o + 255` of the scaled query projection, what the chunk stores at
    local index `x` of its slab of the output block is `blkOut` at the block's index `(0, o + x₁, x₂)`. -/
theorem slab_eq (x0 : FVec Ideal S1x2048x1024 .f32) (x1 x2 x3 : FVec Ideal S1024x64 .f32) (x4 : FVec Ideal S1x1x2048 .f32)
    (o : Nat) (ho : o + 256 ≤ 2048) (q : FVec Ideal S256x64 .bf16)
    (hq : ∀ (r : Fin 256) (d : Fin 64), q (ix2 r d) = k0_pay2 (F := Ideal) x0 x1 (ix2 ⟨o + r.val, by have := r.isLt; omega⟩ d))
    (inb : ∀ a, (![0, o, 0] : Fin 3 → Nat) a + (![1, 256, 64] : Fin 3 → Nat) a ≤ S1x2048x64.size a)
    (x : (Rect.unit (s := S1x2048x64) ![0, o, 0] ![1, 256, 64] inb).shape.Idx) :
    k0_pay6 (F := Ideal) (k0_pay5 (F := Ideal) x4) q (k0_pay3 (F := Ideal) x0 x2) (k0_pay4 (F := Ideal) x0 x3) x
      = blkOut x0 x1 x2 x3 x4 ((Rect.unit (s := S1x2048x64) ![0, o, 0] ![1, 256, 64] inb).emb x) := by
  obtain ⟨a, r, h, rfl⟩ : ∃ (a : Fin 1) (r : Fin 256) (h : Fin 64), x = ix3 a r h := ⟨x 0, x 1, x 2, eq_ix3 x⟩
  obtain rfl : a = 0 := Subsingleton.elim _ _
  have hs : csc (k0_pay5 (F := Ideal) x4) q (k0_pay3 (F := Ideal) x0 x2) r
      = bscore x0 x1 x2 x4 ⟨o + r.val, by have := r.isLt; omega⟩ := by
    funext s
    unfold csc bscore
    simp only [hq, pay2_apply, pay3_apply, pay5_apply]
  have e1 : (Rect.unit (s := S1x2048x64) ![0, o, 0] ![1, 256, 64] inb).emb (ix3 (0 : Fin 1) r h) 1
      = (⟨o + r.val, by have := r.isLt; omega⟩ : Fin 2048) := Fin.ext (by
    simp only [Rect.emb_apply, Rect.off_unit, Rect.stride_unit, Nat.one_mul]; rfl)
  have e2 : (Rect.unit (s := S1x2048x64) ![0, o, 0] ![1, 256, 64] inb).emb (ix3 (0 : Fin 1) r h) 2 = h := Fin.ext (by
    simp only [Rect.emb_apply, Rect.off_unit, Rect.stride_unit, Nat.one_mul]; simp)
  refine (chunk_apply (k0_pay5 (F := Ideal) x4) q (k0_pay3 (F := Ideal) x0 x2) (k0_pay4 (F := Ideal) x0 x3) r h).trans ?_
  show _ = bout x0 x1 x2 x3 x4 _ _
  rw [e1, e2, hs]
  unfold bout
  simp only [pay4_apply]

/-- THE BLOCK. What the body's run leaves in the output's staging buffer — eight slabs, each read back from the scratch
    buffers the body filled first — is `blkOut` of the loaded blocks. -/
theorem out_eq (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1x2048 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole)
    (x0 : Vec Ideal S1x2048x1024 .f32) (x1 x2 x3 : Vec Ideal S1024x64 .f32) (x4 : Vec Ideal S1x1x2048 .f32) :
    out0_A_5 (F := Ideal) c i arg1 harg1 arg2 harg2 arg3 harg3 arg4 harg4 arg5 harg5 arg6 harg6 arg7 harg7 arg8 harg8 arg9 harg9 x0 x1 x2 x3 x4 = blkOut x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 x0 x1 x2 x3 x4)]
  funext y
  refine View.canon_apply_of_pieces (blkOut x0 x1 x2 x3 x4) _ ?_ y (cover0_A_5 c i arg1 harg1 arg2 harg2 arg3 harg3 arg4 harg4 arg5 harg5 arg6 harg6 arg7 harg7 arg8 harg8 arg9 harg9 x0 x1 x2 x3 x4 y)
  unfold kernelRun0_A
  dsimp only
  sl_unfold_words
  simp only [View.readAt_eq_ld, harg1.read_unread, harg2.read_unread, harg3.read_unread, harg4.read_unread, harg5.read_unread,
    View.ld_unit_zero (S := S1x2048x1024) hz3, View.ld_unit_zero (S := S1024x64) hz2, View.ld_unit_zero (S := S1x1x2048) hz3,
    View.readCov_unit_zero (S := S2048x64) _ hz2]
  simp only [List.forall_mem_cons, List.not_mem_nil, false_imp_iff, forall_const, and_true]
  refine ⟨fun x => ?_, fun x => ?_, fun x => ?_, fun x => ?_, fun x => ?_, fun x => ?_, fun x => ?_, fun x => ?_, fun _ => trivial⟩
  · exact slab_eq x0 x1 x2 x3 x4 1792 (by norm_num) _ (fun r d => rows_of_whole _ _ _ 1792 (by norm_num) _ r d) _ x
  · exact slab_eq x0 x1 x2 x3 x4 1536 (by norm_num) _ (fun r d => rows_of_whole _ _ _ 1536 (by norm_num) _ r d) _ x
  · exact slab_eq x0 x1 x2 x3 x4 1280 (by norm_num) _ (fun r d => rows_of_whole _ _ _ 1280 (by norm_num) _ r d) _ x
  · exact slab_eq x0 x1 x2 x3 x4 1024 (by norm_num) _ (fun r d => rows_of_whole _ _ _ 1024 (by norm_num) _ r d) _ x
  · exact slab_eq x0 x1 x2 x3 x4 768 (by norm_num) _ (fun r d => rows_of_whole _ _ _ 768 (by norm_num) _ r d) _ x
  · exact slab_eq x0 x1 x2 x3 x4 512 (by norm_num) _ (fun r d => rows_of_whole _ _ _ 512 (by norm_num) _ r d) _ x
  · exact slab_eq x0 x1 x2 x3 x4 256 (by norm_num) _ (fun r d => rows_of_whole _ _ _ 256 (by norm_num) _ r d) _ x
  · exact slab_eq x0 x1 x2 x3 x4 0 (by norm_num) _ (fun r d => rows_of_whole _ _ _ 0 (by norm_num) _ r d) _ x

end Cert.Attn

end
-- ==== Proof.KerValue.lean ====
/-
  The kernel's result array after its run: every sequence's output block is `GK` (AttnSpec) of the five argument arrays.

  Grid point `t` handles sequence `t`: its input blocks are sequence `t` of the activations, the three weight matrices
  transposed on the host (whole, at every point), and row `t` of the additive mask the host built from the boolean mask
  (`-∞` on a masked key, `0` elsewhere); its output block is sequence `t` of the result, and the eight points' blocks
  tile the result array.
-/
import proofs.«402769_j1005022347679_4_alg».proof.Proof.Gen.KernelIdeal.Value
import proofs.«402769_j1005022347679_4_alg».proof.Proof.KerBlock
import Idealize.ShloMosaic.Lib.Pipeline.Value
import Idealize.ShloMosaic.Lib.StableHlo.Run
import Idealize.ShloMosaic.Lib.Tactic
import Idealize.ShloMosaic.PureOps.Ideal.Laws

set_option maxRecDepth 16384

noncomputable section

open scoped BigOperators

namespace Cert.Attn

open Idealize.ShloMosaic Idealize.ShloMosaic.ValueIdx Idealize.ShloMosaic.Tactic Idealize.ShloMosaic.TcCoe Idealize.SL.Sem
open Idealize.ShloMosaic.StableHlo Cert.KernelIdeal Cert.KernelIdeal.Gen
open Idealize.ShloMosaic.Pipeline (Dat)

variable (m : (ℓ : Loc nD τ sig) → Buf (Elt Ideal) ℓ)

/-- The printed index maps, decided over the grid: the activations', the mask's and the output's block index is the
    point along the batch axis and zero elsewhere; the weights' is zero. -/
theorem idxf : ∀ t : Fin cfg0.N, win0_5.index t (0 : Fin 3) = t.val ∧ win0_5.index t (1 : Fin 3) = 0 ∧ win0_5.index t (2 : Fin 3) = 0
    ∧ win0_0.index t (0 : Fin 3) = t.val ∧ win0_0.index t (1 : Fin 3) = 0 ∧ win0_0.index t (2 : Fin 3) = 0
    ∧ win0_4.index t (0 : Fin 3) = t.val ∧ win0_4.index t (1 : Fin 3) = 0 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The sequence a grid point handles. -/
abbrev seqOf (t : Fin cfg0.N) : Fin 8 := t.cast N_0

/-- The activations' block at point `t` is sequence `t` of the argument. -/
theorem iblk0_apply (c : Dev nD) (t : Fin cfg0.N) (r : Fin 2048) (k : Fin 1024) :
    (iblk m c 0 t : FVec Ideal S1x2048x1024 .f32) (ix3 (0 : Fin 1) r k)
      = ((m ((c : Thread nD τ).loc main_arg0)) : S8x2048x1024.Idx → EReal) (ix3 (seqOf t) r k) := by
  obtain ⟨-, -, -, e0, e1, e2, -⟩ := idxf t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = t.val; rw [e0]; omega
  | ⟨1, _⟩ => show win0_0.index t (1 : Fin 3) * 2048 + 1 * r.val = r.val; rw [e1]; omega
  | ⟨2, _⟩ => show win0_0.index t (2 : Fin 3) * 1024 + 1 * k.val = k.val; rw [e2]; omega

/-- Window 1's block, at every point, is the whole of the host's transpose of `main_arg1`: entry `(k, d)` is the weight's `(d, k)`. -/
theorem iblk1_apply (c : Dev nD) (t : Fin cfg0.N) (k : Fin 1024) (d : Fin 64) :
    (iblk m c 1 t : FVec Ideal S1024x64 .f32) (ix2 k d)
      = ((m ((c : Thread nD τ).loc main_arg1)) : S64x1024.Idx → EReal) (ix2 d k) := by
  obtain ⟨-, -, -, -, -, -, -, -, -, f10, f11, f20, f21, f30, f31⟩ := idxf t
  have hV : (V m c main_v0 : S1024x64.Idx → EReal)
      = transpose S1024x64 [1, 0] ((m ((c : Thread nD τ).loc main_arg1)) : S64x1024.Idx → EReal) transposes_S64x1024_S1024x64_1_0 := by
    dsimp only [V]
    simp only [hostOps0, hostOps0_1, hostOps0_2, List.flatten_cons, List.flatten_nil, List.append_nil, List.cons_append, List.nil_append]
    after_results
  unfold iblk
  rw [View.read_apply]
  show V m c main_v0 _ = _
  rw [hV]
  refine (transpose_apply [1, 0] _ transposes_S64x1024_S1024x64_1_0 _ (ix2 d k) (fun b => ?_)).trans rfl
  match b with
  | ⟨0, _⟩ => show k.val = win0_1.index t (0 : Fin 2) * 1024 + 1 * k.val; rw [f10]; omega
  | ⟨1, _⟩ => show d.val = win0_1.index t (1 : Fin 2) * 64 + 1 * d.val; rw [f11]; omega

/-- Window 2's block, at every point, is the whole of the host's transpose of `main_arg2`: entry `(k, d)` is the weight's `(d, k)`. -/
theorem iblk2_apply (c : Dev nD) (t : Fin cfg0.N) (k : Fin 1024) (d : Fin 64) :
    (iblk m c 2 t : FVec Ideal S1024x64 .f32) (ix2 k d)
      = ((m ((c : Thread nD τ).loc main_arg2)) : S64x1024.Idx → EReal) (ix2 d k) := by
  obtain ⟨-, -, -, -, -, -, -, -, -, f10, f11, f20, f21, f30, f31⟩ := idxf t
  have hV : (V m c main_v1 : S1024x64.Idx → EReal)
      = transpose S1024x64 [1, 0] ((m ((c : Thread nD τ).loc main_arg2)) : S64x1024.Idx → EReal) transposes_S64x1024_S1024x64_1_0 := by
    dsimp only [V]
    simp only [hostOps0, hostOps0_1, hostOps0_2, List.flatten_cons, List.flatten_nil, List.append_nil, List.cons_append, List.nil_append]
    after_results
  unfold iblk
  rw [View.read_apply]
  show V m c main_v1 _ = _
  rw [hV]
  refine (transpose_apply [1, 0] _ transposes_S64x1024_S1024x64_1_0 _ (ix2 d k) (fun b => ?_)).trans rfl
  match b with
  | ⟨0, _⟩ => show k.val = win0_2.index t (0 : Fin 2) * 1024 + 1 * k.val; rw [f20]; omega
  | ⟨1, _⟩ => show d.val = win0_2.index t (1 : Fin 2) * 64 + 1 * d.val; rw [f21]; omega

/-- Window 3's block, at every point, is the whole of the host's transpose of `main_arg3`: entry `(k, d)` is the weight's `(d, k)`. -/
theorem iblk3_apply (c : Dev nD) (t : Fin cfg0.N) (k : Fin 1024) (d : Fin 64) :
    (iblk m c 3 t : FVec Ideal S1024x64 .f32) (ix2 k d)
      = ((m ((c : Thread nD τ).loc main_arg3)) : S64x1024.Idx → EReal) (ix2 d k) := by
  obtain ⟨-, -, -, -, -, -, -, -, -, f10, f11, f20, f21, f30, f31⟩ := idxf t
  have hV : (V m c main_v2 : S1024x64.Idx → EReal)
      = transpose S1024x64 [1, 0] ((m ((c : Thread nD τ).loc main_arg3)) : S64x1024.Idx → EReal) transposes_S64x1024_S1024x64_1_0 := by
    dsimp only [V]
    simp only [hostOps0, hostOps0_1, hostOps0_2, List.flatten_cons, List.flatten_nil, List.append_nil, List.cons_append, List.nil_append]
    after_results
  unfold iblk
  rw [View.read_apply]
  show V m c main_v2 _ = _
  rw [hV]
  refine (transpose_apply [1, 0] _ transposes_S64x1024_S1024x64_1_0 _ (ix2 d k) (fun b => ?_)).trans rfl
  match b with
  | ⟨0, _⟩ => show k.val = win0_3.index t (0 : Fin 2) * 1024 + 1 * k.val; rw [f30]; omega
  | ⟨1, _⟩ => show d.val = win0_3.index t (1 : Fin 2) * 64 + 1 * d.val; rw [f31]; omega

theorem ofBits_neg_inf : Ideal.ofBits .f32 0xFF800000#32 = (⊥ : EReal) := by simp [Ideal.ofBits, Ideal.ieee]

/-- The mask's block at point `t` is row `t` of the additive mask the host builds: `-∞` on a masked key, `0` elsewhere. -/
theorem iblk4_apply (c : Dev nD) (t : Fin cfg0.N) (s : Fin 2048) :
    (iblk m c 4 t : FVec Ideal S1x1x2048 .f32) (ix3 (0 : Fin 1) (0 : Fin 1) s)
      = maskAdd ((m ((c : Thread nD τ).loc main_arg4)) : S8x2048.Idx → BitVec 1) (seqOf t) s := by
  obtain ⟨-, -, -, -, -, -, g0, g1, g2, -⟩ := idxf t
  have hV : (V m c main_v5 : S8x1x2048.Idx → EReal) (ix3 (seqOf t) (0 : Fin 1) s)
      = maskAdd ((m ((c : Thread nD τ).loc main_arg4)) : S8x2048.Idx → BitVec 1) (seqOf t) s := by
    dsimp only [V]
    simp only [hostOps0, hostOps0_1, hostOps0_2, List.flatten_cons, List.flatten_nil, List.append_nil, List.cons_append, List.nil_append]
    after_results
    refine (broadcastInDim_apply ![0, 2] bcast_S8x2048_S8x1x2048_0_2 _ _ (ix2 (seqOf t) s) (fun a => ?_)).trans ?_
    · match a with
      | ⟨0, _⟩ => rfl
      | ⟨1, _⟩ => rfl
    · show Scalar.select (((m ((c : Thread nD τ).loc main_arg4)) : S8x2048.Idx → BitVec 1) (ix2 (seqOf t) s))
          (Ideal.ofBits .f32 0xFF800000#32) (Ideal.ofBits .f32 0x00000000#32) = _
      unfold maskAdd
      by_cases hb : ((m ((c : Thread nD τ).loc main_arg4)) : S8x2048.Idx → BitVec 1) (ix2 (seqOf t) s) = 1#1
      · rw [if_pos hb, hb, select_one, ofBits_neg_inf]
      · rw [if_neg hb, eq_zero_of_ne_one hb, select_zero, Ideal.ofBits_zero_f32]
  unfold iblk
  rw [View.read_apply]
  show V m c main_v5 _ = _
  refine Eq.trans (congrArg _ (funext fun a => Fin.ext ?_)) hV
  match a with
  | ⟨0, _⟩ => show win0_4.index t (0 : Fin 3) * 1 + 1 * 0 = t.val; rw [g0]; omega
  | ⟨1, _⟩ => show win0_4.index t (1 : Fin 3) * 1 + 1 * 0 = 0; rw [g1]
  | ⟨2, _⟩ => show win0_4.index t (2 : Fin 3) * 2048 + 1 * s.val = s.val; rw [g2]; omega

/-- WHAT POINT `t` WRITES BACK is block `t` of `GK` of the argument arrays. -/
theorem flushed_eq (c : Dev nD) (t : Fin cfg0.N) :
    (dats m 0 c).flushed 5 t = ((cfg0.win 5).blk t).view.read (Elt Ideal)
      (GK (m ((c : Thread nD τ).loc main_arg0)) (m ((c : Thread nD τ).loc main_arg1)) (m ((c : Thread nD τ).loc main_arg2)) (m ((c : Thread nD τ).loc main_arg3)) (m ((c : Thread nD τ).loc main_arg4))) := by
  obtain ⟨e0, e1, e2, -⟩ := idxf t
  rw [Cert.KernelIdeal.Value.flushed5_A,
    out_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t)]
  funext y
  obtain ⟨a, r, h, rfl⟩ : ∃ (a : Fin 1) (r : Fin 2048) (h : Fin 64), y = ix3 a r h := ⟨y 0, y 1, y 2, eq_ix3 y⟩
  obtain rfl : a = 0 := Subsingleton.elim _ _
  rw [View.read_apply]
  have hemb : ((cfg0.win 5).blk t).view.emb (ix3 (0 : Fin 1) r h) = (ix3 (seqOf t) r h : S8x2048x64.Idx) := by
    funext b; apply Fin.ext
    match b with
    | ⟨0, _⟩ => show win0_5.index t (0 : Fin 3) * 1 + 1 * 0 = t.val; rw [e0]; omega
    | ⟨1, _⟩ => show win0_5.index t (1 : Fin 3) * 2048 + 1 * r.val = r.val; rw [e1]; omega
    | ⟨2, _⟩ => show win0_5.index t (2 : Fin 3) * 64 + 1 * h.val = h.val; rw [e2]; omega
  show bout (iblk m c 0 t) (iblk m c 1 t) (iblk m c 2 t) (iblk m c 3 t) (iblk m c 4 t) r h = GK _ _ _ _ _ _
  rw [hemb]
  show _ = GKc _ _ _ _ _ (seqOf t) r h
  unfold bout GKc bscore kscore proj
  simp only [iblk0_apply, iblk1_apply, iblk2_apply, iblk3_apply, iblk4_apply]

/-- The eight blocks tile the result array: index `(b, r, h)` lies in point `b`'s block. -/
theorem covered (i : S8x2048x64.Idx) : ∃ t : Fin cfg0.N, (cfg0.win 5).flush t = true ∧ i ∈ ((cfg0.win 5).blk t).view.set := by
  refine ⟨(i 0).cast N_0.symm, flush0_5 _, ?_⟩
  obtain ⟨e0, e1, e2, -⟩ := idxf ((i 0).cast N_0.symm)
  show i ∈ ((View.whole main_v6).slice (win0_5.rect ((i 0).cast N_0.symm))).set
  rw [View.set_slice_whole, Rect.mem_set_unit]
  intro a
  have h1 : (i 1 : Nat) < 2048 := (i 1).isLt
  have h2 : (i 2 : Nat) < 64 := (i 2).isLt
  match a with
  | ⟨0, _⟩ => show win0_5.index ((i 0).cast N_0.symm) (0 : Fin 3) * 1 ≤ (i 0 : Nat) ∧ (i 0 : Nat) < win0_5.index ((i 0).cast N_0.symm) (0 : Fin 3) * 1 + 1
              have hc : ((i 0).cast N_0.symm : Fin cfg0.N).val = (i 0 : Nat) := rfl
              rw [e0, hc]; omega
  | ⟨1, _⟩ => show win0_5.index ((i 0).cast N_0.symm) (1 : Fin 3) * 2048 ≤ (i 1 : Nat) ∧ (i 1 : Nat) < win0_5.index ((i 0).cast N_0.symm) (1 : Fin 3) * 2048 + 2048
              rw [e1]; omega
  | ⟨2, _⟩ => show win0_5.index ((i 0).cast N_0.symm) (2 : Fin 3) * 64 ≤ (i 2 : Nat) ∧ (i 2 : Nat) < win0_5.index ((i 0).cast N_0.symm) (2 : Fin 3) * 64 + 64
              rw [e2]; omega

/-- THE ARRAY after the run is `GK` of the argument arrays. -/
theorem final (c : Dev nD) : (dats m 0 c).arrAt 5 cfg0.N
    = GK (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed_eq m c t) covered

end Cert.Attn

end
-- ==== Proof.lean ====
/-
  Single-head masked softmax attention: the fused kernel against its jnp reference, over the extended reals.

  For sequence `b`, query `t`, head column `h`, with `Q = X·Wqᵀ`, `K = X·Wkᵀ`, `V = X·Wvᵀ` and `c0 = 1024^(-1/2) = 2⁻⁵`:
  the reference computes `∑_s softmax_s((Q_t·K_s)·c0 masked to -∞) · V[s,h]`, dividing each weight by the row's sum before
  the product with `V`; the kernel scales the query first, adds the mask as `-∞` or `0`, and divides the sum of products
  by the row's sum at the end. The two agree wherever every float input is a real number and every sequence has at
  least one unmasked key (then the row maximum is a real number, every exponential is a nonnegative real, and the row
  sum is a positive real, so the division distributes over the sum): that is the precondition. A fully masked row is
  outside it: there the reference's own shifted score is `-∞ - (-∞)`.

  The frames of the two kernel programs are the generated ones; the reference's frame is its run with the result
  dropped; the idealization rewrote nothing. The kernel's result array is read off the generated frame run (each grid
  point's eight stored slabs, read back from the scratch buffers the body fills first, are one function of the point's
  loaded blocks; the eight points' blocks tile the result), the reference's off its generated run one operation at a time.
-/
import proofs.«402769_j1005022347679_4_alg».proof.Defs
import proofs.«402769_j1005022347679_4_alg».proof.Proof.Gen.Kernel
import proofs.«402769_j1005022347679_4_alg».proof.Proof.Gen.Kernel.Skeleton
import proofs.«402769_j1005022347679_4_alg».proof.Proof.Gen.Kernel.Launch
import proofs.«402769_j1005022347679_4_alg».proof.Proof.Gen.Kernel.Points
import proofs.«402769_j1005022347679_4_alg».proof.Proof.Gen.Kernel.Frame
import proofs.«402769_j1005022347679_4_alg».proof.Proof.Gen.KernelIdeal
import proofs.«402769_j1005022347679_4_alg».proof.Proof.Gen.KernelIdeal.Skeleton
import proofs.«402769_j1005022347679_4_alg».proof.Proof.Gen.KernelIdeal.Launch
import proofs.«402769_j1005022347679_4_alg».proof.Proof.Gen.KernelIdeal.Points
import proofs.«402769_j1005022347679_4_alg».proof.Proof.Gen.KernelIdeal.Frame
import proofs.«402769_j1005022347679_4_alg».proof.Proof.Gen.ReferenceIdeal
import proofs.«402769_j1005022347679_4_alg».proof.Proof.Gen.Pre_finite_inputs
import proofs.«402769_j1005022347679_4_alg».proof.Proof.Gen.KernelIdeal.Value
import proofs.«402769_j1005022347679_4_alg».proof.Proof.Gen.ReferenceIdeal.Run
import proofs.«402769_j1005022347679_4_alg».proof.Proof.Gen.ReferenceIdeal.Read
import proofs.«402769_j1005022347679_4_alg».proof.Proof.AttnLaw
import proofs.«402769_j1005022347679_4_alg».proof.Proof.PreRead
import proofs.«402769_j1005022347679_4_alg».proof.Proof.RefValue
import proofs.«402769_j1005022347679_4_alg».proof.Proof.KerValue
import Idealize.ShloMosaic.Adequacy
import Idealize.ShloMosaic.Init

noncomputable section

namespace Cert.Proof

open Idealize.ShloMosaic Idealize.SL.Sem

/-- The reference's frame: its run with the result dropped. -/
theorem frame_ref [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2) (Cert.ReferenceIdeal.Value.run (F := Ideal) m ρ)

/-- Both idealized programs end with the reference arrangement `G` of the argument arrays: the kernel's array is the
    kernel arrangement `GK`, which is `G` under the precondition; the reference's last stage is `G`. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Value.run_blocks m ρ)
    obtain ⟨h0, h1, h2, h3, h4⟩ := Cert.Attn.pre_read _ _ _ _ _ (hpre c)
    exact (Cert.Attn.final m c).trans (Cert.Attn.GK_eq_G _ _ _ _ _ h0 h1 h2 h3 h4)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v19_eq, Cert.Attn.ref_eq, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ref, trivial, algebraic⟩

end Cert.Proof

end
